-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg0 : IVec S16384 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .slt main_arg0 main_v16
  let main_v18 : IVec S16384 1 := andi main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  main_v20

def fn {F : FTy → Type} [FloatOps F] (main_arg0 : IVec S16384 32) (main_arg1 : FVec F S16384x4096 .f32) (main_arg2 : FVec F S4096x4096 .f32) (main_arg3 : FVec F S4096 .f32) : IVec S_ 1 :=
  let main_v0 : FVec F S16384x4096 .f32 := Host.absf main_arg1
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg0 main_v14
  let main_c_5 : IVec S_ 32 := constantI S_ 32 4096#32
  fn_part1 (F := F) main_arg0 main_v13 main_v15 main_c_5
-- ==== Kernel.lean ====
abbrev S16384 : Shape := ⟨1, ![16384]⟩
abbrev S16384x4096 : Shape := ⟨2, ![16384, 4096]⟩
abbrev S4096x4096 : Shape := ⟨2, ![4096, 4096]⟩
abbrev S4096 : Shape := ⟨1, ![4096]⟩
abbrev S16384x1 : Shape := ⟨2, ![16384, 1]⟩
abbrev S1x4096 : Shape := ⟨2, ![1, 4096]⟩
abbrev S64x1 : Shape := ⟨2, ![64, 1]⟩
abbrev S64x4096 : Shape := ⟨2, ![64, 4096]⟩
abbrev S64 : Shape := ⟨1, ![64]⟩

abbrev nBuf : Space → Nat
  | .hbm => 8
  | .vmem => 8
  | .smem => 0
  | _ => 0

abbrev bufTy : (tb : Table) → Fin (tcTables nBuf tb) → BufTy
  | .hbm, ⟨0, _⟩ => ⟨S16384, .i32⟩
  | .hbm, ⟨1, _⟩ => ⟨S16384x4096, .f32⟩
  | .hbm, ⟨2, _⟩ => ⟨S4096x4096, .f32⟩
  | .hbm, ⟨3, _⟩ => ⟨S4096, .f32⟩
  | .hbm, ⟨4, _⟩ => ⟨S16384x1, .i32⟩
  | .hbm, ⟨5, _⟩ => ⟨S1x4096, .f32⟩
  | .hbm, ⟨6, _⟩ => ⟨S4096x4096, .bf16⟩
  | .hbm, ⟨7, _⟩ => ⟨S16384x4096, .f32⟩
  | .local _ .vmem, ⟨0, _⟩ => ⟨S64x1, .i32⟩
  | .local _ .vmem, ⟨1, _⟩ => ⟨S64x1, .i32⟩
  | .local _ .vmem, ⟨2, _⟩ => ⟨S64x4096, .f32⟩
  | .local _ .vmem, ⟨3, _⟩ => ⟨S64x4096, .f32⟩
  | .local _ .vmem, ⟨4, _⟩ => ⟨S4096x4096, .bf16⟩
  | .local _ .vmem, ⟨5, _⟩ => ⟨S1x4096, .f32⟩
  | .local _ .vmem, ⟨6, _⟩ => ⟨S64x4096, .f32⟩
  | .local _ .vmem, ⟨7, _⟩ => ⟨S64x4096, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16384_S16384x1 : S16384.ShapeCasts S16384x1
  shapeCasts_S4096_S1x4096 : S4096.ShapeCasts S1x4096
  bitsLt_bf16_f32 : FTy.bits .bf16 < FTy.bits .f32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S64x4096_d1_w32 : S64x4096.Iotas .tc 32 [1]
  broadcasts_S64x1_S64x4096 : S64x1.Broadcasts S64x4096
  inb_S64x4096_S64x4096_0_0 : ∀ a, (![0, 0] : Fin 2 → Nat) a + S64x4096.size a ≤ S64x4096.size a
  h_S64x4096 : 0 < S64x4096.numel
  reduces_S64x4096_S64 : S64x4096.Reduces [1] S64
  shapeCasts_S64_S64x1 : S64.ShapeCasts S64x1
  natLt_1_32 : 1 < 32
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  dot_S64x4096_S4096x4096_S64x4096_1_1_0_0_n_n_wf : DotDims.WF S64x4096 S4096x4096 S64x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1.size a ≤ S16384x1.size a
  hwx0_0 : ∀ i : grid0.Coords, EltTy.bits .i32 = 32 ∨ (Rect.block (s := S16384x1) S64x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S16384x4096.size a
  hwx0_1 : ∀ i : grid0.Coords, EltTy.bits .f32 = 32 ∨ (Rect.block (s := S16384x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x4096.size a ≤ S4096x4096.size a
  hwx0_2 : ∀ i : grid0.Coords, EltTy.bits .bf16 = 32 ∨ (Rect.block (s := S4096x4096) S4096x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S16384x4096.size a
  hwx0_4 : ∀ i : grid0.Coords, EltTy.bits .f32 = 32 ∨ (Rect.block (s := S16384x4096) S64x4096.size (cc0_transform_4 i) (hinb0_4 i)).WholeWords (EltTy.packing .f32)

variable [Facts₀]

def dot_S64x4096_S4096x4096_S64x4096_1_1_0_0_n_n : DotDims S64x4096 S4096x4096 S64x4096 where
  lhsContracting := [1]
  rhsContracting := [1]
  lhsNonContracting := [0]
  rhsNonContracting := [0]
  lhsBatch := []
  rhsBatch := []
  wf := dot_S64x4096_S4096x4096_S64x4096_1_1_0_0_n_n_wf

abbrev win0_0 : Pipeline.Window sig grid0 :=
  Pipeline.Window.ofSpec (Memref.whole main_v0) S64x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384 : Shape := ⟨1, ![16384]⟩
abbrev S16384x4096 : Shape := ⟨2, ![16384, 4096]⟩
abbrev S4096x4096 : Shape := ⟨2, ![4096, 4096]⟩
abbrev S4096 : Shape := ⟨1, ![4096]⟩
abbrev S16384x1 : Shape := ⟨2, ![16384, 1]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S1x4096 : Shape := ⟨2, ![1, 4096]⟩

abbrev nBuf : Space → Nat
  | .hbm => 44
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x4096, .f32⟩
  | .hbm, ⟨2, _⟩ => ⟨S4096x4096, .f32⟩
  | .hbm, ⟨3, _⟩ => ⟨S4096, .f32⟩
  | .hbm, ⟨4, _⟩ => ⟨S16384x1, .i32⟩
  | .hbm, ⟨5, _⟩ => ⟨S_, .i32⟩
  | .hbm, ⟨6, _⟩ => ⟨S16384x1, .i32⟩
  | .hbm, ⟨7, _⟩ => ⟨S16384x1, .i1⟩
  | .hbm, ⟨8, _⟩ => ⟨S_, .i32⟩
  | .hbm, ⟨9, _⟩ => ⟨S16384x1, .i32⟩
  | .hbm, ⟨10, _⟩ => ⟨S16384x1, .i32⟩
  | .hbm, ⟨11, _⟩ => ⟨S16384x1, .i32⟩
  | .hbm, ⟨12, _⟩ => ⟨S16384x1x1, .i32⟩
  | .hbm, ⟨13, _⟩ => ⟨S1, .i32⟩
  | .hbm, ⟨14, _⟩ => ⟨S_, .i32⟩
  | .hbm, ⟨15, _⟩ => ⟨S16384x1x1, .i32⟩
  | .hbm, ⟨16, _⟩ => ⟨S16384x1x1, .i1⟩
  | .hbm, ⟨17, _⟩ => ⟨S1x1x1, .i32⟩
  | .hbm, ⟨18, _⟩ => ⟨S16384x1x1, .i32⟩
  | .hbm, ⟨19, _⟩ => ⟨S16384x1x1, .i1⟩
  | .hbm, ⟨20, _⟩ => ⟨S16384x1x1, .i1⟩
  | .hbm, ⟨21, _⟩ => ⟨S_, .i1⟩
  | .hbm, ⟨22, _⟩ => ⟨S16384x1, .i1⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384, .f32⟩
  | .hbm, ⟨28, _⟩ => ⟨S16384x1, .f32⟩
  | .hbm, ⟨29, _⟩ => ⟨S4096x4096, .f32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S1x4096, .f32⟩
  | .hbm, ⟨42, _⟩ => ⟨S16384x4096, .f32⟩
  | .hbm, ⟨43, _⟩ => ⟨S16384x4096, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_c : Ref sig .tc := ⟨.hbm, 30, rfl⟩
abbrev main_v5 : Ref sig .tc := ⟨.hbm, 31, rfl⟩
abbrev main_v6 : Ref sig .tc := ⟨.hbm, 32, rfl⟩
abbrev main_c_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  shapeCasts_S16384x1_S16384 : S16384x1.ShapeCasts S16384
  transposes_S4096x4096_S4096x4096_1_0 : S4096x4096.Transposes [1, 0] S4096x4096
  bcast_S_S16384 : S_.BroadcastsInDim S16384 (![] : Fin 0 → Fin S16384.rank)
  bcast_S16384x1_S16384x4096_0_1 : S16384x1.BroadcastsInDim S16384x4096 (![0, 1] : Fin 2 → Fin S16384x4096.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  gather_S16384x4096_S16384x1x1_S16384x1_n_1_0_0_1_2_11_wf : GatherDims.WF S16384x4096 S16384x1x1 S16384x1 [] [1] [0] [1] [0] 2 ![1, 1]
  gather_S4096x4096_S16384x1_S16384x4096_1_0_n_n_0_1_14096_wf : GatherDims.WF S4096x4096 S16384x1 S16384x4096 [1] [0] [] [0] [] 1 ![1, 4096]

variable [Facts₀]

def gather_S16384x4096_S16384x1x1_S16384x1_n_1_0_0_1_2_11 : GatherDims S16384x4096 S16384x1x1 S16384x1 where
  offsetDims := []
  collapsedSliceDims := [1]
  operandBatchingDims := [0]
  startIndicesBatchingDims := [0]
  startIndexMap := [1]
  indexVectorDim := 2
  sliceSizes := ![1, 1]
  wf := gather_S16384x4096_S16384x1x1_S16384x1_n_1_0_0_1_2_11_wf
def gather_S4096x4096_S16384x1_S16384x4096_1_0_n_n_0_1_14096 : GatherDims S4096x4096 S16384x1 S16384x4096 where
  offsetDims := [1]
  collapsedSliceDims := [0]
  operandBatchingDims := []
  startIndicesBatchingDims := []
  startIndexMap := [0]
  indexVectorDim := 1
  sliceSizes := ![1, 4096]
  wf := gather_S4096x4096_S16384x1_S16384x4096_1_0_n_n_0_1_14096_wf

class Facts : Prop extends Facts₀ where

variable [Facts]
-- ==== Proof.InRange.lean ====
/-
  What the precondition says of the index words: every row's word, read as a signed integer, lies in [0, 4096) —
  so it reads the same unsigned, and names a column of the row.
-/
import proofs.«405122_j30193620091460_1_alg».proof.Proof.Gen.Pre_finite_inputs
import Idealize.ShloMosaic.Lib.ReduceAll
import Idealize.ShloMosaic.Lib.Affine
import Idealize.ShloMosaic.Lib.StableHlo.Predicate
import Idealize.ShloMosaic.Lib.ValueIdx

noncomputable section

open Idealize.ShloMosaic Idealize.ShloMosaic.ValueIdx

namespace Cert.InRange

/-- A word at least 0 and below 4096 as a signed integer is below 4096 as a natural number. -/
theorem toNat_lt_of_signed {x : BitVec 32} (h0 : (0#32 : BitVec 32).toInt ≤ x.toInt) (h1 : x.toInt < (4096#32 : BitVec 32).toInt) :
    x.toNat < 4096 := by
  have e0 : (0#32 : BitVec 32).toInt = 0 := by decide
  have e1 : (4096#32 : BitVec 32).toInt = 4096 := by decide
  rw [e0] at h0
  rw [e1] at h1
  have hm : 2 * x.toNat < 2 ^ 32 := BitVec.toInt_pos_iff.1 h0
  rw [BitVec.toInt_eq_toNat_of_lt hm] at h1
  omega

/-- Such a word is nonnegative: its top bit is clear. -/
theorem two_mul_lt {x : BitVec 32} (h : x.toNat < 4096) : 2 * x.toNat < 2 ^ 32 := by omega

/-- Read signed it is its natural value. -/
theorem toInt_eq {x : BitVec 32} (h : x.toNat < 4096) : x.toInt = (x.toNat : Int) :=
  BitVec.toInt_eq_toNat_of_lt (two_mul_lt h)

instance : Subsingleton Cert.Pre_finite_inputs.S_.Idx := ⟨fun a b => funext fun d => d.elim0⟩

/-- The precondition's last conjunct, read back at row `i`. -/
theorem word_lt {F : FTy → Type} [FloatOps F] (w : IVec Cert.Pre_finite_inputs.S16384 32)
    (z : FVec F Cert.Pre_finite_inputs.S16384x4096 .f32) (W : FVec F Cert.Pre_finite_inputs.S4096x4096 .f32)
    (b : FVec F Cert.Pre_finite_inputs.S4096 .f32)
    (h : Cert.Pre_finite_inputs.fn (F := F) w z W b = fun _ => 1#1) (i : Fin 16384) :
    (w (ix1 i)).toNat < 4096 := by
  have h0 := congrFun h ix0
  dsimp only [Cert.Pre_finite_inputs.fn, Cert.Pre_finite_inputs.fn_part1] at h0
  obtain ⟨-, h19⟩ := IntOp.andi_eq_one.1 h0
  have hi := Host.reduce_andi_all _ _ _ _ ix0 h19 (ix1 i)
  obtain ⟨hge, hlt⟩ := IntOp.andi_eq_one.1 hi
  have hge' := IntOp.cmpi_sge.1 hge
  have hlt' := IntOp.cmpi_slt.1 hlt
  rw [StableHlo.Predicate.bcast_scalar _ (by decide)] at hge' hlt'
  exact toNat_lt_of_signed hge' hlt'

end Cert.InRange

end
-- ==== Proof.Picked.lean ====
/-
  The function both programs compute, and the two sums a one-hot row collapses.

  Row `i` carries an index word `w i`, which names one of the row's 4096 columns. The result at (i, j) is
  `z i (w i) · W j (w i) + b j`: the entry of `z`'s row `i` that the word names, times the entry of `W`'s row `j` in the
  same column, plus the bias. One program reads the two entries directly; the other recovers each as a sum over all
  4096 columns against the indicator of the named column: `∑ l, [l = w i] ? z i l : 0` and `∑ l, [l = w i] · W j l`.
  On the extended reals both sums collapse to their one live term with no finiteness assumption: a dead term of the
  first is the literal 0, a dead term of the second is `0 · x = 0` for every extended real `x`, and `1 · x = x`.
-/
import Idealize.ShloMosaic.PureOps.Ideal
import Idealize.ShloMosaic.Lib.ValueIdx
import Idealize.ShloMosaic.Lib.StableHlo.Predicate

noncomputable section

open Idealize.ShloMosaic Idealize.ShloMosaic.ValueIdx
open scoped BigOperators

namespace Cert.Picked

/-- The column an index word names: its value as a natural number, reduced into the row's 4096 columns so that the
    definition is total; for a word in range the reduction does nothing. -/
def col (x : BitVec 32) : Fin 4096 := ⟨x.toNat % 4096, Nat.mod_lt _ (by decide)⟩

theorem col_val_of_lt {x : BitVec 32} (h : x.toNat < 4096) : (col x).val = x.toNat := Nat.mod_eq_of_lt h

/-- Lane `l`'s number is the word exactly when `l` is the column the word names (the word in range). -/
theorem lane_eq_iff (l : Fin 4096) (x : BitVec 32) (hx : x.toNat < 4096) : BitVec.ofNat 32 l.val = x ↔ l = col x := by
  have hl := l.isLt
  constructor
  · intro h
    apply Fin.ext
    rw [col_val_of_lt hx, ← h, BitVec.toNat_ofNat]
    omega
  · intro h
    subst h
    apply BitVec.eq_of_toNat_eq
    rw [BitVec.toNat_ofNat, col_val_of_lt hx]
    omega

/-- The lane test as a bit: set on the named column, clear elsewhere. -/
theorem lane_bit (l : Fin 4096) (x : BitVec 32) (hx : x.toNat < 4096) :
    IntOp.cmpi .eq (BitVec.ofNat 32 l.val) x = if l = col x then 1#1 else 0#1 := by
  by_cases h : l = col x
  · rw [if_pos h]
    exact StableHlo.Predicate.cmpi_eq_iff.2 ((lane_eq_iff l x hx).2 h)
  · rw [if_neg h]
    exact eq_zero_of_ne_one fun h1 => h ((lane_eq_iff l x hx).1 (StableHlo.Predicate.cmpi_eq_iff.1 h1))

/-- The widened set bit converts to the real number one … -/
theorem weight_one : FloatOps.sitofp (F := Ideal) .f32 ((1#1 : BitVec 1).setWidth 32) = (1 : EReal) := by
  show (((BitVec.setWidth 32 (1#1 : BitVec 1)).toInt : ℝ) : EReal) = 1
  have e : (BitVec.setWidth 32 (1#1 : BitVec 1)).toInt = 1 := by decide
  rw [e]
  simp

/-- … and the widened clear bit to zero. -/
theorem weight_zero : FloatOps.sitofp (F := Ideal) .f32 ((0#1 : BitVec 1).setWidth 32) = (0 : EReal) := by
  show (((BitVec.setWidth 32 (0#1 : BitVec 1)).toInt : ℝ) : EReal) = 0
  have e : (BitVec.setWidth 32 (0#1 : BitVec 1)).toInt = 0 := by decide
  rw [e]
  simp

/-- A row masked to the named column, summed, is the row's entry in that column. -/
theorem sum_select (x : BitVec 32) (hx : x.toNat < 4096) (f : Fin 4096 → EReal) :
    ∑ l : Fin 4096, Scalar.select (IntOp.cmpi .eq (BitVec.ofNat 32 l.val) x) (f l) (0 : EReal) = f (col x) := by
  have e : ∀ l : Fin 4096, Scalar.select (IntOp.cmpi .eq (BitVec.ofNat 32 l.val) x) (f l) (0 : EReal)
      = if l = col x then f l else 0 := by
    intro l
    rw [lane_bit l x hx]
    by_cases h : l = col x
    · rw [if_pos h, if_pos h, select_one]
    · rw [if_neg h, if_neg h, select_zero]
  simp only [e, Finset.sum_ite_eq', Finset.mem_univ, if_true]

/-- A row weighted by the indicator of the named column, summed, is the row's entry in that column. -/
theorem sum_weight (x : BitVec 32) (hx : x.toNat < 4096) (g : Fin 4096 → EReal) :
    ∑ l : Fin 4096, FloatOps.sitofp (F := Ideal) .f32 ((IntOp.cmpi .eq (BitVec.ofNat 32 l.val) x).setWidth 32) * g l
      = g (col x) := by
  have e : ∀ l : Fin 4096,
      FloatOps.sitofp (F := Ideal) .f32 ((IntOp.cmpi .eq (BitVec.ofNat 32 l.val) x).setWidth 32) * g l
        = if l = col x then g l else 0 := by
    intro l
    rw [lane_bit l x hx]
    by_cases h : l = col x
    · rw [if_pos h, if_pos h, weight_one, one_mul]
    · rw [if_neg h, if_neg h, weight_zero, zero_mul]
  simp only [e, Finset.sum_ite_eq', Finset.mem_univ, if_true]

/-- THE RESULT, entry by entry: row `i`'s named entry of `z`, times row `j`'s entry of `W` in the same column,
    plus the bias at `j`. -/
def value (w : IVec ⟨1, ![16384]⟩ 32) (z : FVec Ideal ⟨2, ![16384, 4096]⟩ .f32) (W : FVec Ideal ⟨2, ![4096, 4096]⟩ .f32)
    (b : FVec Ideal ⟨1, ![4096]⟩ .f32) (i : Fin 16384) (j : Fin 4096) : EReal :=
  z (ix2 i (col (w (ix1 i)))) * W (ix2 j (col (w (ix1 i)))) + b (ix1 j)

/-- The result as one array. -/
def result (w : IVec ⟨1, ![16384]⟩ 32) (z : FVec Ideal ⟨2, ![16384, 4096]⟩ .f32) (W : FVec Ideal ⟨2, ![4096, 4096]⟩ .f32)
    (b : FVec Ideal ⟨1, ![4096]⟩ .f32) : FVec Ideal ⟨2, ![16384, 4096]⟩ .f32 :=
  fun y => value w z W b (y 0) (y 1)

theorem result_ix2 (w : IVec ⟨1, ![16384]⟩ 32) (z : FVec Ideal ⟨2, ![16384, 4096]⟩ .f32) (W : FVec Ideal ⟨2, ![4096, 4096]⟩ .f32)
    (b : FVec Ideal ⟨1, ![4096]⟩ .f32) (i : Fin 16384) (j : Fin 4096) :
    result w z W b (ix2 i j) = value w z W b i j := rfl

end Cert.Picked

end
-- ==== Proof.ColumnLayout.lean ====
/-
  Two layout operations read at an index given by coordinates: a vector laid out as a one-column matrix, and a
  one-column matrix repeated along every column.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KernelEntry.lean ====
/-
  One entry of what the kernel body stores, as a function of the blocks it loads.

  The body sees 64 rows at a time: the rows' index words as a [64 × 1] column, the rows of `z` as a [64 × 4096] block,
  all of `W` and the bias as a [1 × 4096] row. It builds the [64 × 4096] table of bits "lane l is the lane row p's word
  names", masks the `z` block by it and sums each row (the named entry of `z`), widens the same bits to 0/1 weights and
  contracts them against the rows of `W` (the entry of `W`'s row q in the named column), multiplies the two and adds
  the bias. With the word in range each of the two sums over the 4096 lanes has one live term (Picked.lean).
-/
import proofs.«405122_j30193620091460_1_alg».proof.Proof.Gen.KernelIdeal.Skeleton
import proofs.«405122_j30193620091460_1_alg».proof.Proof.Picked
import proofs.«405122_j30193620091460_1_alg».proof.Proof.ColumnLayout
import Idealize.ShloMosaic.PureOps.Ideal.Laws
import Idealize.ShloMosaic.Lib.Pipeline.Value
import Idealize.ShloMosaic.Lib.ValueLayout

noncomputable section

open Idealize.ShloMosaic Idealize.ShloMosaic.ValueIdx
open scoped BigOperators

namespace Cert.KernelEntry

open Cert.KernelIdeal Cert.KernelIdeal.Gen Cert.Picked Cert.ColumnLayout

/-- The contraction's dimension numbers: both operands contract their column axis. -/
abbrev dotD : DotDims S64x4096 S4096x4096 S64x4096 := dot_S64x4096_S4096x4096_S64x4096_1_1_0_0_n_n

theorem lhs_dotD_0 (j : S64x4096.Idx) (k : dotD.contr.Idx) : (dotD.lhsIdx j k 0 : ℕ) = j 0 := by
  simp [DotDims.lhsIdx, dotD, dot_S64x4096_S4096x4096_S64x4096_1_1_0_0_n_n]; rfl
theorem lhs_dotD_1 (j : S64x4096.Idx) (k : dotD.contr.Idx) : (dotD.lhsIdx j k 1 : ℕ) = k ⟨0, by decide⟩ := by
  simp [DotDims.lhsIdx, dotD, dot_S64x4096_S4096x4096_S64x4096_1_1_0_0_n_n]; rfl
theorem rhs_dotD_0 (j : S64x4096.Idx) (k : dotD.contr.Idx) : (dotD.rhsIdx j k 0 : ℕ) = j 1 := by
  simp [DotDims.rhsIdx, dotD, dot_S64x4096_S4096x4096_S64x4096_1_1_0_0_n_n]; rfl
theorem rhs_dotD_1 (j : S64x4096.Idx) (k : dotD.contr.Idx) : (dotD.rhsIdx j k 1 : ℕ) = k ⟨0, by decide⟩ := by
  simp [DotDims.rhsIdx, dotD, dot_S64x4096_S4096x4096_S64x4096_1_1_0_0_n_n]; rfl

/-- The contraction into a zero accumulator, at (p, q): the sum over the 4096 columns of the two rows' products. -/
theorem contract_entry (A : FVec Ideal S64x4096 .bf16) (B : FVec Ideal S4096x4096 .bf16) (p : Fin 64) (q : Fin 4096) :
    matmul dotD none A B (constant S64x4096 .f32 0x00000000#32) (ix2 p q)
      = ∑ l : Fin 4096, A (ix2 p l) * B (ix2 q l) := by
  refine (Ideal.matmul_constant_zero_apply dotD none A B (ix2 p q)).trans ?_
  rw [← Equiv.sum_comp (contrEquiv1 dotD 4096 rfl rfl).symm]
  refine Finset.sum_congr rfl fun l _ => ?_
  congr 2
  · funext a
    match a with
    | ⟨0, _⟩ => exact Fin.ext (lhs_dotD_0 _ _)
    | ⟨1, _⟩ => exact Fin.ext ((lhs_dotD_1 _ _).trans (contrEquiv1_symm_val dotD 4096 rfl rfl l))
  · funext a
    match a with
    | ⟨0, _⟩ => exact Fin.ext (rhs_dotD_0 _ _)
    | ⟨1, _⟩ => exact Fin.ext ((rhs_dotD_1 _ _).trans (contrEquiv1_symm_val dotD 4096 rfl rfl l))

/-- The source index over row `p` with lane `l` inserted on the reduced axis is (p, l). -/
theorem lift_row (h : S64x4096.Reduces [1] S64) (p : Fin 64) (l : Fin 4096) : h.lift (ix1 p) l = ix2 p l := by
  funext c
  match c with
  | ⟨0, _⟩ =>
    apply Fin.ext
    show h.liftVal (ix1 p) l.val ⟨0, by decide⟩ = p.val
    unfold Shape.Reduces.liftVal
    rw [dif_neg (by show ¬ (0 : ℕ) = 1; omega), dif_pos (by show (0 : ℕ) < 1; omega)]
  | ⟨1, _⟩ =>
    apply Fin.ext
    show h.liftVal (ix1 p) l.val ⟨1, by decide⟩ = l.val
    unfold Shape.Reduces.liftVal
    rw [dif_pos (by show (1 : ℕ) = 1; rfl)]

/-- The lane sum of a block, at row `p`. -/
theorem rowsum_entry (X : FVec Ideal S64x4096 .f32) (h : S64x4096.Reduces [1] S64) (hφ : FKind.Formats .f32)
    (hacc : (0x00000000#32 : BitVec 32) = 0x00000000#32) (p : Fin 64) :
    multiReduction .add [1] S64 X 0x00000000#32 h hφ hacc (ix1 p) = ∑ l : Fin 4096, X (ix2 p l) :=
  (Ideal.multiReduction_add_single X 0x00000000#32 h hφ hacc (ix1 p)).trans
    (Finset.sum_congr rfl fun l _ => congrArg X (lift_row h p l))

/-- The bit the body computes at (p, l): lane `l`'s number against row `p`'s word. -/
theorem bit_entry (v0 : Vec Ideal S64x1 .i32) (p : Fin 64) (l : Fin 4096) :
    cmpi .eq (iota .tc S64x4096 32 [1] iota_S64x4096_d1_w32)
        (broadcastTo S64x4096 (shapeCast S64x1 (shapeCast S64x1 v0 shapeCasts_S64x1_S64x1) shapeCasts_S64x1_S64x1)
          broadcasts_S64x1_S64x4096) (ix2 p l)
      = IntOp.cmpi .eq (BitVec.ofNat 32 l.val) (v0 (ix2 p (0 : Fin 1))) := by
  show IntOp.cmpi .eq (iota .tc S64x4096 32 [1] iota_S64x4096_d1_w32 (ix2 p l))
      (broadcastTo S64x4096 (shapeCast S64x1 (shapeCast S64x1 v0 shapeCasts_S64x1_S64x1) shapeCasts_S64x1_S64x1)
        broadcasts_S64x1_S64x4096 (ix2 p l)) = _
  rw [iota_single_apply, broadcastTo_a1_ab_apply, shapeCast_self, shapeCast_self]

/-- ONE ENTRY OF THE STORED BLOCK: row `p`'s named entry of the `z` block times row `q` of `W` in the named column,
    plus the bias at `q` (the row's word in range). -/
theorem stored_entry (v0 : Vec Ideal S64x1 .i32) (v6 : Vec Ideal S64x4096 .f32) (v14 : Vec Ideal S4096x4096 .bf16)
    (v19 : Vec Ideal S1x4096 .f32) (p : Fin 64) (q : Fin 4096) (hw : (v0 (ix2 p (0 : Fin 1))).toNat < 4096) :
    k0_pay1 (F := Ideal) v0 v6 v14 v19 (ix2 p q)
      = v6 (ix2 p (col (v0 (ix2 p (0 : Fin 1))))) * v14 (ix2 q (col (v0 (ix2 p (0 : Fin 1))))) + v19 (ix2 (0 : Fin 1) q) := by
  dsimp only [k0_pay1]
  rw [addf_apply, mulf_apply, broadcastTo_a1_ab_apply, shapeCast_a_a1_apply]
  refine congrArg₂ (· + ·) (congrArg₂ (· * ·) ?_ ?_) ?_
  · -- the masked row sum
    refine (rowsum_entry _ _ _ _ p).trans ?_
    refine (Finset.sum_congr rfl fun l _ => ?_).trans (sum_select (v0 (ix2 p (0 : Fin 1))) hw fun l => v6 (ix2 p l))
    show Scalar.select (cmpi .eq (iota .tc S64x4096 32 [1] iota_S64x4096_d1_w32)
        (broadcastTo S64x4096 (shapeCast S64x1 (shapeCast S64x1 v0 shapeCasts_S64x1_S64x1) shapeCasts_S64x1_S64x1)
          broadcasts_S64x1_S64x4096) (ix2 p l)) (v6 (ix2 p l)) (Ideal.ofBits .f32 0x00000000#32) = _
    rw [bit_entry, Ideal.ofBits_zero_f32]
  · -- the weighted contraction
    refine (contract_entry _ _ p q).trans ?_
    refine (Finset.sum_congr rfl fun l _ => ?_).trans (sum_weight (v0 (ix2 p (0 : Fin 1))) hw fun l => v14 (ix2 q l))
    show FloatOps.sitofp (F := Ideal) .f32 ((cmpi .eq (iota .tc S64x4096 32 [1] iota_S64x4096_d1_w32)
        (broadcastTo S64x4096 (shapeCast S64x1 (shapeCast S64x1 v0 shapeCasts_S64x1_S64x1) shapeCasts_S64x1_S64x1)
          broadcasts_S64x1_S64x4096) (ix2 p l)).setWidth 32)
      * shapeCast S4096x4096 v14 shapeCasts_S4096x4096_S4096x4096 (ix2 q l) = _
    rw [bit_entry, shapeCast_self]
  · -- the bias row
    rw [broadcastTo_1b_ab_apply, shapeCast_self]

end Cert.KernelEntry

end
-- ==== Proof.KernelArray.lean ====
/-
  From what each grid point stores to the whole result array.

  The kernel walks the 16384 rows 64 at a time: point `t` sees rows `64 t … 64 t + 63` of the index words (as a
  column) and of `z`, all of `W` and the bias row, and writes rows `64 t … 64 t + 63` of the result. So entry (p, q) of
  the block point `t` writes is entry (64 t + p, q) of the result (KernelEntry.lean read at the blocks), and the 256
  blocks tile the array: row `r` is written by point `r / 64`.
-/
import proofs.«405122_j30193620091460_1_alg».proof.Proof.Gen.KernelIdeal.Value
import proofs.«405122_j30193620091460_1_alg».proof.Proof.KernelEntry
import Idealize.ShloMosaic.Lib.Pipeline.Value
import Idealize.ShloMosaic.Lib.StableHlo.Run
import Idealize.ShloMosaic.Lib.ValueLayout

noncomputable section

open Idealize.ShloMosaic Idealize.ShloMosaic.ValueIdx Idealize.ShloMosaic.TcCoe Idealize.SL.Sem
open Idealize.ShloMosaic.Pipeline (Dat)

namespace Cert.KernelIdeal.Whole

open Cert.KernelIdeal Cert.KernelIdeal.Gen Cert.KernelIdeal.Value Cert.Picked Cert.ColumnLayout

variable (m : (ℓ : Loc nD τ sig) → Buf (Elt Ideal) ℓ) (ρ : Dev nD → PrngReg)

/-! ## The four argument arrays, and the arrays the region finds -/

abbrev wArr (c : Dev nD) : IVec S16384 32 := m ((c : Thread nD τ).loc main_arg0)
abbrev zArr (c : Dev nD) : FVec Ideal S16384x4096 .f32 := m ((c : Thread nD τ).loc main_arg1)
abbrev WArr (c : Dev nD) : FVec Ideal S4096x4096 .f32 := m ((c : Thread nD τ).loc main_arg2)
abbrev bArr (c : Dev nD) : FVec Ideal S4096 .f32 := m ((c : Thread nD τ).loc main_arg3)

/-- The index words reach the region laid out as a column. -/
theorem V_words (c : Dev nD) :
    (V m c main_v0 : S16384x1.Idx → BitVec 32) = shapeCast S16384x1 (wArr m c) shapeCasts_S16384_S16384x1 := by
  dsimp only [Gen.V, Gen.hostOps0]
  after_results
  rfl

/-- The bias reaches the region laid out as a row. -/
theorem V_bias (c : Dev nD) :
    (V m c main_v1 : S1x4096.Idx → EReal) = shapeCast S1x4096 (bArr m c) shapeCasts_S4096_S1x4096 := by
  dsimp only [Gen.V, Gen.hostOps0]
  after_results
  rfl

/-- `W` reaches the region in a narrower format: on the extended reals, itself. -/
theorem V_weights (c : Dev nD) : (V m c main_v2 : S4096x4096.Idx → EReal) = WArr m c := by
  dsimp only [Gen.V, Gen.hostOps0]
  after_results
  rfl

/-! ## The blocks a point sees -/

/-- The printed index maps, decided over the 256 points: the row windows move with the point, `W` and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of point `t`'s blocks is row `64 t + p` of the arrays. -/
def row (t : Fin cfg0.N) (p : Fin 64) : Fin 16384 :=
  ⟨64 * t.val + p.val, by have h1 := t.isLt; have h2 : cfg0.N = 256 := N_0; have h3 := p.isLt; omega⟩

abbrev wblk (c : Dev nD) (t : Fin cfg0.N) : Vec Ideal S64x1 .i32 := iblk m c 0 t
abbrev zblk (c : Dev nD) (t : Fin cfg0.N) : Vec Ideal S64x4096 .f32 := iblk m c 1 t
abbrev Wblk (c : Dev nD) (t : Fin cfg0.N) : Vec Ideal S4096x4096 .bf16 := iblk m c 2 t
abbrev bblk (c : Dev nD) (t : Fin cfg0.N) : Vec Ideal S1x4096 .f32 := iblk m c 3 t

theorem wblk_apply (c : Dev nD) (t : Fin cfg0.N) (p : Fin 64) (u : Fin 1) :
    wblk m c t (ix2 p u) = wArr m c (ix1 (row t p)) := by
  obtain ⟨e0, e1, -⟩ := idx_facts t
  unfold wblk iblk
  rw [View.read_apply]
  show (V m c main_v0 : S16384x1.Idx → BitVec 32) _ = _
  rw [V_words]
  refine Eq.trans (congrArg _ ?_) (shapeCast_a_a1_apply (wArr m c) shapeCasts_S16384_S16384x1 (row t p) u)
  funext a
  apply Fin.ext
  match a with
  | ⟨0, _⟩ => show win0_0.index t 0 * 64 + 1 * p.val = 64 * t.val + p.val; rw [e0]; omega
  | ⟨1, _⟩ => show win0_0.index t 1 * 1 + 1 * u.val = u.val; rw [e1]; omega

theorem zblk_apply (c : Dev nD) (t : Fin cfg0.N) (p : Fin 64) (l : Fin 4096) :
    zblk m c t (ix2 p l) = zArr m c (ix2 (row t p) l) := by
  obtain ⟨-, -, e0, e1, -⟩ := idx_facts t
  unfold zblk iblk
  rw [View.read_apply]
  show V m c main_arg1 _ = _
  rw [V_main_arg1]
  refine congrArg (zArr m c) ?_
  funext a
  apply Fin.ext
  match a with
  | ⟨0, _⟩ => show win0_1.index t 0 * 64 + 1 * p.val = 64 * t.val + p.val; rw [e0]; omega
  | ⟨1, _⟩ => show win0_1.index t 1 * 4096 + 1 * l.val = l.val; rw [e1]; omega

theorem Wblk_apply (c : Dev nD) (t : Fin cfg0.N) (a b : Fin 4096) :
    Wblk m c t (ix2 a b) = WArr m c (ix2 a b) := by
  obtain ⟨-, -, -, -, e0, e1, -⟩ := idx_facts t
  unfold Wblk iblk
  rw [View.read_apply]
  show (V m c main_v2 : S4096x4096.Idx → EReal) _ = _
  rw [V_weights]
  refine congrArg (WArr m c) ?_
  funext x
  apply Fin.ext
  match x with
  | ⟨0, _⟩ => show win0_2.index t 0 * 4096 + 1 * a.val = a.val; rw [e0]; omega
  | ⟨1, _⟩ => show win0_2.index t 1 * 4096 + 1 * b.val = b.val; rw [e1]; omega

theorem bblk_apply (c : Dev nD) (t : Fin cfg0.N) (u : Fin 1) (q : Fin 4096) :
    bblk m c t (ix2 u q) = bArr m c (ix1 q) := by
  obtain ⟨-, -, -, -, -, -, e0, e1, -⟩ := idx_facts t
  unfold bblk iblk
  rw [View.read_apply]
  show (V m c main_v1 : S1x4096.Idx → EReal) _ = _
  rw [V_bias]
  refine Eq.trans (congrArg _ ?_) (shapeCast_a_1a_apply (bArr m c) shapeCasts_S4096_S1x4096 u q)
  funext x
  apply Fin.ext
  match x with
  | ⟨0, _⟩ => show win0_3.index t 0 * 1 + 1 * u.val = u.val; rw [e0]; omega
  | ⟨1, _⟩ => show win0_3.index t 1 * 4096 + 1 * q.val = q.val; rw [e1]; omega

/-! ## What a point writes back, and the whole array -/

theorem hz : (![0, 0] : Fin 2 → Nat) = fun _ => 0 := funext fun a => by fin_cases a <;> rfl

/-- The result array of device `c`'s arguments. -/
abbrev res (c : Dev nD) : FVec Ideal S16384x4096 .f32 := result (wArr m c) (zArr m c) (WArr m c) (bArr m c)

variable (hw : ∀ (c : Dev nD) (i : Fin 16384), (wArr m c (ix1 i)).toNat < 4096)

include hw in
/-- WHAT POINT `t` WRITES BACK is block `t` of the result array. -/
theorem flushed_eq (c : Dev nD) (t : Fin cfg0.N) :
    (dats m 0 c).flushed 4 t = ((cfg0.win 4).blk t).view.read (Elt Ideal) (res m c) := by
  obtain ⟨-, -, -, -, -, -, -, -, e0, e1⟩ := idx_facts t
  rw [flushed4]
  unfold out0_4
  rw [View.canon_unit_zero hz]
  simp only [View.ld_unit_zero (S := S64x1) hz, View.ld_unit_zero (S := S64x4096) hz,
    View.ld_unit_zero (S := S4096x4096) hz, View.ld_unit_zero (S := S1x4096) hz]
  funext j
  obtain ⟨p, q, rfl⟩ : ∃ (p : Fin 64) (q : Fin 4096), j = ix2 p q := ⟨j 0, j 1, eq_ix2 j⟩
  show k0_pay1 (F := Ideal) (wblk m c t) (zblk m c t) (Wblk m c t) (bblk m c t) (ix2 p q)
    = res m c (((cfg0.win 4).blk t).view.emb (ix2 p q))
  have hidx : (((cfg0.win 4).blk t).view.emb (ix2 p q) : S16384x4096.Idx) = ix2 (row t p) q := by
    funext a
    apply Fin.ext
    match a with
    | ⟨0, _⟩ => show win0_4.index t 0 * 64 + 1 * p.val = 64 * t.val + p.val; rw [e0]; omega
    | ⟨1, _⟩ => show win0_4.index t 1 * 4096 + 1 * q.val = q.val; rw [e1]; omega
  rw [hidx, Cert.KernelEntry.stored_entry (wblk m c t) (zblk m c t) (Wblk m c t) (bblk m c t) p q (by rw [wblk_apply]; exact hw c _),
    wblk_apply, zblk_apply, Wblk_apply, bblk_apply]
  rfl

/-- An index of the array is in point `t`'s block iff each coordinate is in the block's range on its axis. -/
theorem mem_blk (t : Fin cfg0.N) (i : S16384x4096.Idx) :
    i ∈ ((cfg0.win 4).blk t).view.set ↔ ∀ a : Fin 2, win0_4.index t a * S64x4096.size a ≤ (i a).val
      ∧ (i a).val < win0_4.index t a * S64x4096.size a + S64x4096.size a := by
  show i ∈ ((View.whole main_v3).slice (win0_4.rect t)).set ↔ _
  rw [View.set_slice_whole, Rect.mem_set_unit]
  exact Iff.rfl

/-- The blocks tile the array: row `r` lies in the block of point `r / 64`. -/
theorem cover (i : S16384x4096.Idx) :
    ∃ t : Fin cfg0.N, (cfg0.win 4).flush t = true ∧ i ∈ ((cfg0.win 4).blk t).view.set := by
  have h0 : (i 0).val < 16384 := (i 0).isLt
  have h1 : (i 1).val < 4096 := (i 1).isLt
  have hN : cfg0.N = 256 := N_0
  obtain ⟨t, ht⟩ : ∃ t : Fin cfg0.N, t.val = (i 0).val / 64 := ⟨⟨(i 0).val / 64, by omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 64 ≤ (i 0).val ∧ (i 0).val < win0_4.index t (0 : Fin 2) * 64 + 64
    rw [e0, ht]; omega
  | ⟨1, _⟩ =>
    show win0_4.index t (1 : Fin 2) * 4096 ≤ (i 1).val ∧ (i 1).val < win0_4.index t (1 : Fin 2) * 4096 + 4096
    rw [e1]; omega

include hw in
/-- THE ARRAY after the run is the result array. -/
theorem final (c : Dev nD) : (dats m 0 c).arrAt 4 cfg0.N = res m c :=
  (dats m 0 c).arrAt_eq_of_cover 4 (res m c) (fun t _ => flushed_eq m hw c t) cover

include hw in
/-- The kernel's run, read: the result buffer ends at the result array, the arguments unchanged. -/
theorem run : θ_run defs (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m hw c), (h c).2⟩) (run_blocks m ρ)

end Cert.KernelIdeal.Whole

end
-- ==== Proof.LibGatherAlong.lean ====
/-
  A gather ALONG THE ROWS of a matrix, one entry per row (what `take_along_axis(x, idx, axis=1)` with an
  [N × 1] index array prints as): the operand's row axis is a batching axis paired with the start indices'
  axis 0, the column axis is collapsed and is the one axis a start index addresses. Entry (p, u) of the
  [N × 1] result is the matrix at row p and at the column the start index of (p, u) names, read as a signed
  integer and brought inside the row.
-/
import Idealize.ShloMosaic.PureOps.Ideal
import Idealize.ShloMosaic.Lib.ValueIdx

noncomputable section

open Idealize.ShloMosaic Idealize.ShloMosaic.ValueIdx

namespace Cert.LibGatherAlong

/-- Every entry of a one-element list is that element. -/
private theorem getElem_of_eq_singleton {β : Type} (l : List β) (b : β) (hl : l = [b]) (k : Nat) (hk : k < l.length) :
    l[k] = b := by
  subst hl
  have h0 : k = 0 := by simpa using hk
  subst h0
  rfl

/-- Entry `k` of the list of both axes of two is axis `k`. -/
private theorem getElem_val_of_eq_01 (l : List (Fin 2)) (hl : l = [0, 1]) (k : Nat) (hk : k < l.length) :
    (l[k]).val = k := by
  subst hl
  match k, hk with
  | 0, _ => rfl
  | 1, _ => rfl

/-- In the list of the first two axes of three, each stands at its own number. -/
private theorem idxOf_of_eq_01 (l : List (Fin 3)) (hl : l = [0, 1]) (e : Fin 3) (he : e.val < 2) :
    l.idxOf e = e.val := by
  subst hl
  match e, he with
  | ⟨0, _⟩, _ => rfl
  | ⟨1, _⟩, _ => rfl

/-- With no offset axis, both axes of the result are batch axes. -/
private theorem batchDims_along {N C : Nat} (d : GatherDims ⟨2, ![N, C]⟩ ⟨3, ![N, 1, 1]⟩ ⟨2, ![N, 1]⟩)
    (hoff : d.offsetDims = []) : d.batchDims = [0, 1] := by
  show Shape.kept _ d.offsetDims = [0, 1]
  rw [hoff]
  show (List.finRange 2).filter (fun e : Fin 2 => e ∉ ([] : List (Fin 2))) = [0, 1]
  decide

/-- The start indices' axes but the index vector's are axes 0 and 1. -/
private theorem siKept_along {N C : Nat} (d : GatherDims ⟨2, ![N, C]⟩ ⟨3, ![N, 1, 1]⟩ ⟨2, ![N, 1]⟩)
    (hivd : d.indexVectorDim = 2) : d.siKept = [0, 1] := by
  show (List.finRange 3).filter (fun e : Fin 3 => e.val ≠ d.indexVectorDim) = [0, 1]
  rw [hivd]
  decide

/-- The coordinate a result index gives one of the first two axes of the start indices is its own coordinate
    on the axis of that number. -/
private theorem siCoord_along {N C : Nat} (d : GatherDims ⟨2, ![N, C]⟩ ⟨3, ![N, 1, 1]⟩ ⟨2, ![N, 1]⟩)
    (hoff : d.offsetDims = []) (hivd : d.indexVectorDim = 2)
    (j : (⟨2, ![N, 1]⟩ : Shape).Idx) (e : Fin 3) (he : e.val < 2) (hmem : e ∈ d.siKept) :
    (d.siCoord j e hmem).val = (j ⟨e.val, he⟩).val := by
  unfold GatherDims.siCoord
  simp only [Fin.val_cast]
  have hx : ∀ (n : Nat) (hn : n < d.batchDims.length), n = e.val → d.batchDims[n] = ⟨e.val, he⟩ := fun n hn hne =>
    Fin.ext (by rw [getElem_val_of_eq_01 _ (batchDims_along d hoff) n hn, hne])
  rw [hx _ _ (idxOf_of_eq_01 _ (siKept_along d hivd) e he)]

/-- The start-index array is read at the result index's two coordinates, and 0 on the index vector's unit axis. -/
private theorem siIdx_along {N C : Nat} (d : GatherDims ⟨2, ![N, C]⟩ ⟨3, ![N, 1, 1]⟩ ⟨2, ![N, 1]⟩)
    (hoff : d.offsetDims = []) (hsim : d.startIndexMap = [1]) (hivd : d.indexVectorDim = 2)
    (j : (⟨2, ![N, 1]⟩ : Shape).Idx) (m : Fin d.startIndexMap.length) :
    d.siIdx j m = ix3 (j 0) (j 1) (0 : Fin 1) := by
  funext e
  match e with
  | ⟨0, _⟩ =>
    unfold GatherDims.siIdx
    rw [dif_neg (by rw [hivd]; simp)]
    exact Fin.ext (siCoord_along d hoff hivd j ⟨0, by omega⟩ (by simp) _)
  | ⟨1, _⟩ =>
    unfold GatherDims.siIdx
    rw [dif_neg (by rw [hivd]; simp)]
    exact Fin.ext (siCoord_along d hoff hivd j ⟨1, by omega⟩ (by simp) _)
  | ⟨2, _⟩ =>
    unfold GatherDims.siIdx
    rw [dif_pos (by rw [hivd])]
    apply Fin.ext
    have hm : m.val < d.startIndexMap.length := m.isLt
    have hl : d.startIndexMap.length = 1 := by rw [hsim]; rfl
    show m.val = 0
    omega

/-- On the column axis the slice (of size 1) starts at the start index, read signed and brought inside the row. -/
private theorem start_along_1 {N C w : Nat} (d : GatherDims ⟨2, ![N, C]⟩ ⟨3, ![N, 1, 1]⟩ ⟨2, ![N, 1]⟩)
    (hoff : d.offsetDims = []) (hcoll : d.collapsedSliceDims = [1]) (hsim : d.startIndexMap = [1])
    (hivd : d.indexVectorDim = 2) (idx : IVec ⟨3, ![N, 1, 1]⟩ w) (j : (⟨2, ![N, 1]⟩ : Shape).Idx) :
    d.start j idx 1 = min (idx (ix3 (j 0) (j 1) (0 : Fin 1))).toInt.toNat (C - 1) := by
  have hm : (1 : Fin 2) ∈ d.startIndexMap := by rw [hsim]; exact List.mem_singleton.mpr rfl
  have hsl : d.sliceSizes 1 = 1 := d.slice_collapsed 1 (by rw [hcoll]; exact List.mem_singleton.mpr rfl)
  unfold GatherDims.start
  rw [dif_pos hm, siIdx_along d hoff hsim hivd, hsl]
  rfl

/-- On the row axis, a batching axis, the coordinate is the result index's row. -/
private theorem batchCoord_along_0 {N C : Nat} (d : GatherDims ⟨2, ![N, C]⟩ ⟨3, ![N, 1, 1]⟩ ⟨2, ![N, 1]⟩)
    (hoff : d.offsetDims = []) (hob : d.operandBatchingDims = [0]) (hsb : d.startIndicesBatchingDims = [0])
    (hivd : d.indexVectorDim = 2) (j : (⟨2, ![N, 1]⟩ : Shape).Idx) :
    d.batchCoord j 0 = (j 0).val := by
  have ha : (0 : Fin 2) ∈ d.operandBatchingDims := by rw [hob]; exact List.mem_singleton.mpr rfl
  have e0 : ∀ (n : Nat) (hn : n < d.startIndicesBatchingDims.length), d.startIndicesBatchingDims[n] = 0 :=
    fun n hn => getElem_of_eq_singleton _ _ hsb n hn
  have key : ∀ a b : Fin 2, a = b → (j a).val = (j b).val := fun a b h => by subst h; rfl
  unfold GatherDims.batchCoord
  rw [dif_pos ha]
  refine (siCoord_along d hoff hivd j _ ?_ _).trans (key _ _ (Fin.ext ?_))
  · rw [e0]; exact Nat.zero_lt_two
  · have h := congrArg Fin.val (e0 (List.idxOf (0 : Fin 2) d.operandBatchingDims)
      (by rw [← d.ob_length]; exact List.idxOf_lt_length_iff.2 ha))
    exact h

/-- No operand axis has an offset coordinate: one is collapsed, the other batching. -/
private theorem offCoord_along {N C : Nat} (d : GatherDims ⟨2, ![N, C]⟩ ⟨3, ![N, 1, 1]⟩ ⟨2, ![N, 1]⟩)
    (hcoll : d.collapsedSliceDims = [1]) (hob : d.operandBatchingDims = [0])
    (j : (⟨2, ![N, 1]⟩ : Shape).Idx) (a : Fin 2) : d.offCoord j a = 0 := by
  apply d.offCoord_eq_zero
  intro h
  have h2 := (d.mem_sKept a).1 h
  rw [hcoll, hob] at h2
  match a with
  | ⟨0, _⟩ => exact h2.2 (List.mem_singleton.mpr rfl)
  | ⟨1, _⟩ => exact h2.1 (List.mem_singleton.mpr rfl)

/-- The gather along the rows read at (p, u). -/
theorem gather_along {α : Type} {N C w : Nat} (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec ⟨3, ![N, 1, 1]⟩ w) (p : Fin N) (u : Fin 1) (hC : 0 < C) :
    Host.gather d x idx (ix2 p u)
      = x (ix2 p (⟨min (idx (ix3 p u (0 : Fin 1))).toInt.toNat (C - 1), by omega⟩ : Fin C)) := by
  unfold Host.gather
  congr 1
  funext a
  match a with
  | ⟨0, _⟩ =>
    apply Fin.ext
    show d.start (ix2 p u) idx 0 + d.batchCoord (ix2 p u) 0 + d.offCoord (ix2 p u) 0 = _
    rw [d.start_batching _ _ 0 (by rw [hob]; exact List.mem_singleton.mpr rfl),
      batchCoord_along_0 d hoff hob hsb hivd, offCoord_along d hcoll hob]
    show 0 + p.val + 0 = p.val
    omega
  | ⟨1, _⟩ =>
    apply Fin.ext
    show d.start (ix2 p u) idx 1 + d.batchCoord (ix2 p u) 1 + d.offCoord (ix2 p u) 1 = _
    rw [start_along_1 d hoff hcoll hsim hivd, d.batchCoord_eq_zero _ _ (by rw [hob]; show (1 : Fin 2) ∉ ([0] : List (Fin 2)); decide),
      offCoord_along d hcoll hob]
    rfl

end Cert.LibGatherAlong

end
-- ==== Proof.LibGatherRows2.lean ====
/-
  A gather of whole ROWS of a matrix by an [n × 1] table of start indices (what `table[idx]` of a rank-2 table
  prints as), read at one element: row p, column q of the result is the table at the row p's start index, read as a
  signed integer and brought inside the table, and at column q.
-/
import Idealize.ShloMosaic.PureOps.Ideal
import Idealize.ShloMosaic.Lib.ValueIdx

noncomputable section

open Idealize.ShloMosaic Idealize.ShloMosaic.ValueIdx

namespace Cert.LibGatherRows

/-- Every entry of a one-element list is that element. -/
private theorem getElem_of_eq_singleton {β : Type} (l : List β) (b : β) (hl : l = [b]) (k : Nat) (hk : k < l.length) :
    l[k] = b := by
  subst hl
  have h0 : k = 0 := by simpa using hk
  subst h0
  rfl

/-- The result's one batch axis is axis 0: axis 1 is the offset axis. -/
private theorem batchDims_rows2 {N C n : Nat} (d : GatherDims ⟨2, ![N, C]⟩ ⟨2, ![n, 1]⟩ ⟨2, ![n, C]⟩)
    (hoff : d.offsetDims = [1]) : d.batchDims = [0] := by
  show Shape.kept _ d.offsetDims = [0]
  rw [hoff]
  show (List.finRange 2).filter (fun a : Fin 2 => a ∉ ([1] : List (Fin 2))) = [0]
  decide

/-- The operand's one axis that is neither collapsed nor batching is axis 1. -/
private theorem sKept_rows2 {N C n : Nat} (d : GatherDims ⟨2, ![N, C]⟩ ⟨2, ![n, 1]⟩ ⟨2, ![n, C]⟩)
    (hcoll : d.collapsedSliceDims = [0]) (hob : d.operandBatchingDims = []) : d.sKept = [1] := by
  show Shape.kept _ (d.collapsedSliceDims ++ d.operandBatchingDims) = [1]
  rw [hcoll, hob, List.append_nil]
  show (List.finRange 2).filter (fun a : Fin 2 => a ∉ ([0] : List (Fin 2))) = ([1] : List (Fin 2))
  decide

/-- The start-index table is read at the result row's row, column 0. -/
private theorem siIdx_rows2 {N C n : Nat} (d : GatherDims ⟨2, ![N, C]⟩ ⟨2, ![n, 1]⟩ ⟨2, ![n, C]⟩)
    (hoff : d.offsetDims = [1]) (hsim : d.startIndexMap = [0]) (hivd : d.indexVectorDim = 1)
    (j : (⟨2, ![n, C]⟩ : Shape).Idx) (c : Fin d.startIndexMap.length) :
    d.siIdx j c = ix2 (j 0) (0 : Fin 1) := by
  funext b
  match b with
  | ⟨0, _⟩ =>
    unfold GatherDims.siIdx
    rw [dif_neg (by rw [hivd]; simp)]
    unfold GatherDims.siCoord
    apply Fin.ext
    simp only [Fin.val_cast]
    have e : ∀ (k : Nat) (hk : k < d.batchDims.length), d.batchDims[k] = 0 :=
      fun k hk => getElem_of_eq_singleton _ _ (batchDims_rows2 d hoff) k hk
    rw [e]
  | ⟨1, _⟩ =>
    unfold GatherDims.siIdx
    rw [dif_pos (by rw [hivd])]
    apply Fin.ext
    have hc : c.val < d.startIndexMap.length := c.isLt
    have hl : d.startIndexMap.length = 1 := by rw [hsim]; rfl
    show c.val = 0
    omega

/-- On the row axis the slice starts at the start index, read signed and brought inside the table. -/
private theorem start_rows2_0 {N C n w : Nat} (d : GatherDims ⟨2, ![N, C]⟩ ⟨2, ![n, 1]⟩ ⟨2, ![n, C]⟩)
    (hoff : d.offsetDims = [1]) (hcoll : d.collapsedSliceDims = [0]) (hsim : d.startIndexMap = [0])
    (hivd : d.indexVectorDim = 1) (idx : IVec ⟨2, ![n, 1]⟩ w) (j : (⟨2, ![n, C]⟩ : Shape).Idx) :
    d.start j idx 0 = min (idx (ix2 (j 0) (0 : Fin 1))).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, siIdx_rows2 d hoff hsim hivd, hsl]
  rfl

/-- On the column axis, which no start index addresses, the slice starts at 0. -/
private theorem start_rows2_1 {N C n w : Nat} (d : GatherDims ⟨2, ![N, C]⟩ ⟨2, ![n, 1]⟩ ⟨2, ![n, C]⟩)
    (hsim : d.startIndexMap = [0]) (idx : IVec ⟨2, ![n, 1]⟩ w) (j : (⟨2, ![n, C]⟩ : Shape).Idx) :
    d.start j idx 1 = 0 := by
  unfold GatherDims.start
  rw [dif_neg]
  rw [hsim]
  show (1 : Fin 2) ∉ ([0] : List (Fin 2))
  decide

/-- The collapsed row axis has no offset coordinate. -/
private theorem offCoord_rows2_0 {N C n : Nat} (d : GatherDims ⟨2, ![N, C]⟩ ⟨2, ![n, 1]⟩ ⟨2, ![n, C]⟩)
    (hcoll : d.collapsedSliceDims = [0]) (j : (⟨2, ![n, C]⟩ : Shape).Idx) :
    d.offCoord j 0 = 0 := by
  apply d.offCoord_eq_zero
  intro h
  exact ((d.mem_sKept 0).1 h).1 (by rw [hcoll]; exact List.mem_singleton.mpr rfl)

/-- The column axis's offset coordinate is the result's column. -/
private theorem offCoord_rows2_1 {N C n : Nat} (d : GatherDims ⟨2, ![N, C]⟩ ⟨2, ![n, 1]⟩ ⟨2, ![n, C]⟩)
    (hoff : d.offsetDims = [1]) (hcoll : d.collapsedSliceDims = [0]) (hob : d.operandBatchingDims = [])
    (j : (⟨2, ![n, C]⟩ : Shape).Idx) :
    d.offCoord j 1 = (j 1).val := by
  have hk : (1 : Fin 2) ∈ d.sKept := by rw [sKept_rows2 d hcoll hob]; exact List.mem_singleton.mpr rfl
  unfold GatherDims.offCoord
  rw [dif_pos hk]
  have e : ∀ (k : Nat) (hk : k < d.offsetDims.length), d.offsetDims[k] = 1 :=
    fun k hk => getElem_of_eq_singleton _ _ hoff k hk
  rw [e]

/-- The row gather read at (p, q). -/
theorem gather_rows2 {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![n, 1]⟩ w) (p : Fin n) (q : Fin C) (hN : 0 < N) :
    Host.gather d x idx (ix2 p q)
      = x (ix2 (⟨min (idx (ix2 p (0 : Fin 1))).toInt.toNat (N - 1), by omega⟩ : Fin N) q) := by
  unfold Host.gather
  congr 1
  funext a
  have hb : ∀ a : Fin 2, a ∉ d.operandBatchingDims := fun a => by rw [hob]; exact List.not_mem_nil
  match a with
  | ⟨0, _⟩ =>
    apply Fin.ext
    show d.start (ix2 p q) idx 0 + d.batchCoord (ix2 p q) 0 + d.offCoord (ix2 p q) 0 = _
    rw [start_rows2_0 d hoff hcoll hsim hivd, d.batchCoord_eq_zero _ _ (hb 0), offCoord_rows2_0 d hcoll]
    rfl
  | ⟨1, _⟩ =>
    apply Fin.ext
    show d.start (ix2 p q) idx 1 + d.batchCoord (ix2 p q) 1 + d.offCoord (ix2 p q) 1 = _
    rw [start_rows2_1 d hsim, d.batchCoord_eq_zero _ _ (hb 1), offCoord_rows2_1 d hoff hcoll hob]
    show 0 + 0 + q.val = q.val
    omega

end Cert.LibGatherRows

end
-- ==== Proof.RefEntry.lean ====
/-
  One entry of what the reference computes, as a function of its four arguments.

  The reference normalises each row's index word the way array indexing does (a negative word has the row length
  added), tests it against the row's range, gathers row `i`'s entry of `z` in that column (an out-of-range word would
  read a fill value instead), gathers the whole row of the transposed `W` that the word names, multiplies and adds the
  bias. For a word in [0, 4096) the normalisation does nothing, the range test passes, and the two gathers' clamps do
  nothing: the entry is `z i (w i) · W j (w i) + b j`.
-/
import proofs.«405122_j30193620091460_1_alg».proof.Proof.RefReadPatched
import proofs.«405122_j30193620091460_1_alg».proof.Proof.Picked
import proofs.«405122_j30193620091460_1_alg».proof.Proof.InRange
import proofs.«405122_j30193620091460_1_alg».proof.Proof.LibGatherAlong
import proofs.«405122_j30193620091460_1_alg».proof.Proof.LibGatherRows2
import Idealize.ShloMosaic.Lib.Affine
import Idealize.ShloMosaic.PureOps.Reduce

noncomputable section

open Idealize.ShloMosaic Idealize.ShloMosaic.ValueIdx

namespace Cert.RefEntry

open Cert.ReferenceIdeal Cert.ReferenceIdeal.Gen Cert.ReferenceIdeal.ReadP Cert.Picked

/-! ## Words in range -/

/-- Normalising a word in range leaves it alone: it is not negative. -/
theorem norm_word {x : BitVec 32} (hx : x.toNat < 4096) :
    Scalar.select (IntOp.cmpi .slt x 0#32) (IntOp.addi x 4096#32) x = x := by
  have h : ¬ IntOp.cmpi .slt x 0#32 = 1#1 := fun h1 => by
    have h2 := IntOp.cmpi_slt.1 h1
    rw [InRange.toInt_eq hx, show (0#32 : BitVec 32).toInt = 0 from by decide] at h2
    omega
  rw [eq_zero_of_ne_one h, select_zero]

/-- A word in range passes the range test `0 ≤ x ≤ 4095`. -/
theorem range_test {x : BitVec 32} (hx : x.toNat < 4096) :
    IntOp.andi (IntOp.cmpi .sge x 0#32) (IntOp.cmpi .sle x 4095#32) = 1#1 := by
  refine IntOp.andi_eq_one.2 ⟨IntOp.cmpi_sge.2 ?_, IntOp.cmpi_sle.2 ?_⟩
  · rw [InRange.toInt_eq hx, show (0#32 : BitVec 32).toInt = 0 from by decide]; omega
  · rw [InRange.toInt_eq hx, show (4095#32 : BitVec 32).toInt = 4095 from by decide]; omega

/-- A gather's clamp of a word in range is the column the word names. -/
theorem clamp_word {x : BitVec 32} (hx : x.toNat < 4096) (h : min x.toInt.toNat (4096 - 1) < 4096) :
    (⟨min x.toInt.toNat (4096 - 1), h⟩ : Fin 4096) = col x := by
  apply Fin.ext
  show min x.toInt.toNat (4096 - 1) = (col x).val
  rw [col_val_of_lt hx, InRange.toInt_eq hx, Int.toNat_natCast]
  omega

/-- A reduction by `and` of an array of set bits, from a set bit, is a set bit. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi (1#1 : BitVec 1) 1#1 = 1#1 from by decide]
    exact foldl_andi_ones x hx l

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-! ## The index words as the reference reads them -/

variable (x0 : IVec S16384 32) (hw : ∀ i : Fin 16384, (x0 (ix1 i)).toNat < 4096)

include hw in
/-- Every word is in range, at whatever index of the word array. -/
theorem word_at (y : S16384.Idx) : (x0 y).toNat < 4096 := by
  rw [eq_ix1 y]; exact hw _

include hw in
/-- The normalised word at (r, u) of the [16384 × 1] column is row r's word. -/
theorem norm_col (y : S16384x1.Idx) : val_main_call0_v4 (F := Ideal) x0 y = x0 (idx_main_v0 y) := by
  rw [val_main_call0_v4_apply, val_main_call0_v1_apply, val_main_call0_v3_apply, val_main_v0_apply,
    val_main_call0_v0_apply, val_main_call0_c_apply, val_main_call0_v2_apply, val_main_call0_c_0_apply]
  exact norm_word (word_at x0 hw _)

include hw in
/-- The range test passes everywhere. -/
theorem mask_ones (y : S16384x1x1.Idx) : val_main_call0_v11 (F := Ideal) x0 y = 1#1 := by
  rw [val_main_call0_v11_apply, val_main_call0_v7_apply, val_main_call0_v10_apply, val_main_call0_v5_apply,
    norm_col x0 hw, val_main_call0_v6_apply, val_main_call0_c_2_apply, val_main_call0_v9_apply,
    val_main_call0_v8_apply, val_main_call0_c_1_apply]
  exact range_test (word_at x0 hw _)

include hw in
/-- The normalised word of the second gather, at row r, is row r's word. -/
theorem norm_row (y : S16384.Idx) : val_main_v9 (F := Ideal) x0 y = x0 y := by
  rw [val_main_v9_apply, val_main_v6_apply, val_main_v8_apply, val_main_v5_apply, val_main_c_apply,
    val_main_v7_apply, val_main_c_0_apply]
  exact norm_word (word_at x0 hw _)

/-! ## The two gathered entries -/

variable (x1 : FVec Ideal S16384x4096 .f32) (x2 : FVec Ideal S4096x4096 .f32) (x3 : FVec Ideal S4096 .f32)

include hw in
/-- Row `i`'s gathered entry of `z`. -/
theorem picked_z (i : Fin 16384) (u : Fin 1) :
    val_main_v1 (F := Ideal) x0 x1 (ix2 i u) = x1 (ix2 i (col (x0 (ix1 i)))) := by
  rw [val_main_v1_apply]
  have hm : val_main_call0_v12 (F := Ideal) x0 (ix2 i u) = 1#1 := by
    unfold val_main_call0_v12
    exact reduce_andi_ones _ _ _ _ (mask_ones x0 hw) (fun _ => rfl) _
  rw [hm, select_one]
  unfold val_main_call0_v13
  rw [LibGatherAlong.gather_along _ rfl rfl rfl rfl rfl rfl x1 _ i u (by decide)]
  have e : val_main_call0_v5 (F := Ideal) x0 (ix3 i u (0 : Fin 1)) = x0 (ix1 i) := by
    rw [val_main_call0_v5_apply, norm_col x0 hw]
    refine congrArg x0 (funext fun a => ?_)
    match a with
    | ⟨0, _⟩ =>
      apply Fin.ext
      have hu : u.val = 0 := by omega
      show ((i.val * 1 + u.val) * 1 + 0) / 1 = i.val
      rw [hu]; omega
  refine congrArg x1 (congrArg (ix2 i) ?_)
  apply Fin.ext
  show min (val_main_call0_v5 (F := Ideal) x0 (ix3 i u (0 : Fin 1))).toInt.toNat (4096 - 1) = (col (x0 (ix1 i))).val
  rw [e, col_val_of_lt (hw i), InRange.toInt_eq (hw i), Int.toNat_natCast]
  have := hw i
  omega

include hw in
/-- Row `i`'s gathered row of the transposed `W`, at column `j`. -/
theorem picked_W (i : Fin 16384) (j : Fin 4096) :
    val_main_v11 (F := Ideal) x0 x2 (ix2 i j) = x2 (ix2 j (col (x0 (ix1 i)))) := by
  unfold val_main_v11
  rw [LibGatherRows.gather_rows2 _ rfl rfl rfl rfl rfl rfl rfl _ _ i j (by decide)]
  have e : val_main_v10 (F := Ideal) x0 (ix2 i (0 : Fin 1)) = x0 (ix1 i) := by
    rw [val_main_v10_apply, norm_row x0 hw]
    refine congrArg x0 (funext fun a => ?_)
    match a with
    | ⟨0, _⟩ => rfl
  rw [val_main_v4_apply]
  refine congrArg x2 (funext fun a => ?_)
  match a with
  | ⟨0, _⟩ => rfl
  | ⟨1, _⟩ =>
    apply Fin.ext
    show min (val_main_v10 (F := Ideal) x0 (ix2 i (0 : Fin 1))).toInt.toNat (4096 - 1) = (col (x0 (ix1 i))).val
    rw [e, col_val_of_lt (hw i), InRange.toInt_eq (hw i), Int.toNat_natCast]
    have := hw i
    omega

include hw in
/-- THE REFERENCE'S ENTRY at (i, j). -/
theorem ref_entry (i : Fin 16384) (j : Fin 4096) :
    val_main_v16 (F := Ideal) x0 x1 x2 x3 (ix2 i j) = value x0 x1 x2 x3 i j := by
  rw [val_main_v16_apply, val_main_v13_apply, val_main_v12_apply, val_main_v3_apply, val_main_v2_apply,
    val_main_v15_apply, val_main_v14_apply, picked_W x0 hw]
  have ek : idx_main_v2 (idx_main_v3 (idx_main_v12 (ix2 i j))) = ix2 i (0 : Fin 1) := by
    funext a
    match a with
    | ⟨0, _⟩ => apply Fin.ext; show i.val / 1 = i.val; omega
    | ⟨1, _⟩ => rfl
  rw [ek, picked_z x0 hw]
  have eb : idx_main_v14 (idx_main_v15 (ix2 i j)) = ix1 j := by
    funext a
    match a with
    | ⟨0, _⟩ => rfl
  rw [eb]
  rfl

end Cert.RefEntry

end
-- ==== Proof.lean ====
/-
  Both programs compute, for a row index word `w i` in [0, 4096), the array

      out i j = z i (w i) · W j (w i) + b j        (16384 rows, 4096 columns).

  The kernel has no way to read `z i (w i)` or column `w i` of `W` directly, so it recovers both from the indicator
  of the named column: the masked row sum `∑ l, [l = w i] ? z i l : 0` and the contraction `∑ l, [l = w i] · W j l` of a
  0/1 weight table against the rows of `W` (held in a narrower float format, which on the extended reals is the
  identity). Each sum has one live term (Picked.lean): no finiteness is needed, only that the word names a column.
  The reference gathers the two entries (after normalising a negative word and testing the range, both of which do
  nothing for a word in range) and applies the same product and sum.

  The precondition states that range, `0 ≤ w i < 4096`, beside the finiteness of the float inputs (which the proof does
  not use). InRange.lean reads it back; KernelEntry.lean and KernelArray.lean read the kernel's run entry by entry and
  block by block; RefEntry.lean reads the reference's; this file sets the two beside each other.
-/
import proofs.«405122_j30193620091460_1_alg».proof.Defs
import proofs.«405122_j30193620091460_1_alg».proof.Proof.Gen.Kernel
import proofs.«405122_j30193620091460_1_alg».proof.Proof.Gen.Kernel.Skeleton
import proofs.«405122_j30193620091460_1_alg».proof.Proof.Gen.Kernel.Launch
import proofs.«405122_j30193620091460_1_alg».proof.Proof.Gen.Kernel.Points
import proofs.«405122_j30193620091460_1_alg».proof.Proof.Gen.Kernel.Frame
import proofs.«405122_j30193620091460_1_alg».proof.Proof.Gen.KernelIdeal
import proofs.«405122_j30193620091460_1_alg».proof.Proof.Gen.KernelIdeal.Skeleton
import proofs.«405122_j30193620091460_1_alg».proof.Proof.Gen.KernelIdeal.Launch
import proofs.«405122_j30193620091460_1_alg».proof.Proof.Gen.KernelIdeal.Points
import proofs.«405122_j30193620091460_1_alg».proof.Proof.Gen.KernelIdeal.Frame
import proofs.«405122_j30193620091460_1_alg».proof.Proof.Gen.ReferenceIdeal
import proofs.«405122_j30193620091460_1_alg».proof.Proof.Gen.Pre_finite_inputs
import proofs.«405122_j30193620091460_1_alg».proof.Proof.Gen.KernelIdeal.Value
import proofs.«405122_j30193620091460_1_alg».proof.Proof.RefRunPatched
import proofs.«405122_j30193620091460_1_alg».proof.Proof.RefReadPatched
import proofs.«405122_j30193620091460_1_alg».proof.Proof.InRange
import proofs.«405122_j30193620091460_1_alg».proof.Proof.KernelArray
import proofs.«405122_j30193620091460_1_alg».proof.Proof.RefEntry
import Idealize.ShloMosaic.Adequacy
import Idealize.ShloMosaic.Init

noncomputable section

namespace Cert.Proof

open Idealize.ShloMosaic Idealize.ShloMosaic.ValueIdx Idealize.ShloMosaic.TcCoe Idealize.SL.Sem

/-- The kernel runs, at the word level, and leaves its arguments alone. -/
theorem frame_kernel : Cert.frame_Kernel := fun m ρ _ => Cert.Kernel.Gen.frame m ρ

/-- So it does read over the extended reals. -/
theorem frame_kernelIdeal : Cert.frame_KernelIdeal := fun m ρ _ => Cert.KernelIdeal.Gen.frame m ρ

/-- The reference runs and leaves its arguments alone: its run, with the result forgotten. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- With every row's word in range, the kernel's result buffer and the reference's end at one array: entry (i, j)
    is `z i (w i) · W j (w i) + b j` on both sides. -/
theorem algebraic : Cert.algebraic_KernelIdeal_ReferenceIdeal := by
  intro m ρ m' ρ' hpre hagree
  have hw : ∀ (c : Dev Cert.KernelIdeal.nD) (i : Fin 16384),
      (Cert.KernelIdeal.Whole.wArr m c (ix1 i)).toNat < 4096 :=
    fun c i => Cert.InRange.word_lt _ _ _ _ (hpre c) i
  refine ⟨fun c => Cert.KernelIdeal.Whole.res m c, Cert.KernelIdeal.Whole.run m ρ hw, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v16_eq, (hagree c).1, (hagree c).2.1, (hagree c).2.2.1, (hagree c).2.2.2]
  funext y
  rw [eq_ix2 y]
  exact Cert.RefEntry.ref_entry _ (hw c) _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
